-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S64x2048 : Shape := ⟨2, ![64, 2048]⟩
abbrev S64 : Shape := ⟨1, ![64]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S16384x2048 .f32) (main_arg1 : FVec F S64x2048 .f32) (main_arg2 : FVec F S64 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S16384x2048 : Shape := ⟨2, ![16384, 2048]⟩
abbrev S64x2048 : Shape := ⟨2, ![64, 2048]⟩
abbrev S64 : Shape := ⟨1, ![64]⟩
abbrev S2x8192x2048 : Shape := ⟨3, ![2, 8192, 2048]⟩
abbrev S1x64 : Shape := ⟨2, ![1, 64]⟩
abbrev S2x8192x64 : Shape := ⟨3, ![2, 8192, 64]⟩
abbrev S1x1024x2048 : Shape := ⟨3, ![1, 1024, 2048]⟩
abbrev S2x1024x64 : Shape := ⟨3, ![2, 1024, 64]⟩
abbrev S1024x2048 : Shape := ⟨2, ![1024, 2048]⟩
abbrev S1024x64 : Shape := ⟨2, ![1024, 64]⟩
abbrev S1024 : Shape := ⟨1, ![1024]⟩
abbrev S1024x1 : Shape := ⟨2, ![1024, 1]⟩
abbrev S1x1024x64 : Shape := ⟨3, ![1, 1024, 64]⟩
abbrev S16384x64 : Shape := ⟨2, ![16384, 64]⟩

abbrev nBuf : Space → Nat
  | .hbm => 7
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2x8192x2048, .f32⟩
  | .hbm, ⟨4, _⟩ => ⟨S1x64, .f32⟩
  | .hbm, ⟨5, _⟩ => ⟨S2x8192x64, .f32⟩
  | .hbm, ⟨6, _⟩ => ⟨S16384x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .f32⟩
  | .local _ .vmem, ⟨3, _⟩ => ⟨S1x1024x2048, .f32⟩
  | .local _ .vmem, ⟨4, _⟩ => ⟨S64x2048, .f32⟩
  | .local _ .vmem, ⟨5, _⟩ => ⟨S1x64, .f32⟩
  | .local _ .vmem, ⟨6, _⟩ => ⟨S2x1024x64, .f32⟩
  | .local _ .vmem, ⟨7, _⟩ => ⟨S2x1024x64, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S16384x2048_S2x8192x2048 : S16384x2048.ShapeCasts S2x8192x2048
  shapeCasts_S64_S1x64 : S64.ShapeCasts S1x64
  inb_S64x2048_S64x2048_0_0 : ∀ a, (![0, 0] : Fin 2 → Nat) a + S64x2048.size a ≤ S64x2048.size a
  h_S64x2048 : 0 < S64x2048.numel
  bitsLt_bf16_f32 : FTy.bits .bf16 < FTy.bits .f32
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  broadcasts_S1x64_S1024x64 : S1x64.Broadcasts S1024x64
  reduces_S1024x64_S1024 : S1024x64.Reduces [1] S1024
  shapeCasts_S1024_S1024x1 : S1024.ShapeCasts S1024x1
  broadcasts_S1024x1_S1024x64 : S1024x1.Broadcasts S1024x64
  inb_S2x1024x64_S1x1024x64_0_0_0 : ∀ a, (![0, 0, 0] : Fin 3 → Nat) a + S1x1024x64.size a ≤ S2x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  inb_S2x1024x64_S1x1024x64_1_0_0 : ∀ a, (![1, 0, 0] : Fin 3 → Nat) a + S1x1024x64.size a ≤ S2x1024x64.size a
  shapeCasts_S2x8192x64_S16384x64 : S2x8192x64.ShapeCasts S16384x64
  dot_S1024x2048_S64x2048_S1024x64_1_1_0_0_n_n_wf : DotDims.WF S1024x2048 S64x2048 S1024x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S2x8192x2048.size a
  hwx0_0 : ∀ i : grid0.Coords, EltTy.bits .f32 = 32 ∨ (Rect.block (s := S2x8192x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S2x8192x2048.size a
  hwx0_1 : ∀ i : grid0.Coords, EltTy.bits .f32 = 32 ∨ (Rect.block (s := S2x8192x2048) S1x1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1024x64.size a ≤ S2x8192x64.size a
  hwx0_4 : ∀ i : grid0.Coords, EltTy.bits .f32 = 32 ∨ (Rect.block (s := S2x8192x64) S2x1024x64.size (cc0_transform_4 i) (hinb0_4 i)).WholeWords (EltTy.packing .f32)

variable [Facts₀]

def dot_S1024x2048_S64x2048_S1024x64_1_1_0_0_n_n : DotDims S1024x2048 S64x2048 S1024x64 where
  lhsContracting := [1]
  rhsContracting := [1]
  lhsNonContracting := [0]
  rhsNonContracting := [0]
  lhsBatch := []
  rhsBatch := []
  wf := dot_S1024x2048_S64x2048_S1024x64_1_1_0_0_n_n_wf

abbrev win0_0 : Pipeline.Window sig grid0 :=
  Pipeline.Window.ofSpec (Memref.whole main_v0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S2x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S64x2048 : Shape := ⟨2, ![64, 2048]⟩
abbrev S64 : Shape := ⟨1, ![64]⟩
abbrev S2048x64 : Shape := ⟨2, ![2048, 64]⟩
abbrev S16384x64 : Shape := ⟨2, ![16384, 64]⟩
abbrev S1x64 : Shape := ⟨2, ![1, 64]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S64x2048, .f32⟩
  | .hbm, ⟨2, _⟩ => ⟨S64, .f32⟩
  | .hbm, ⟨3, _⟩ => ⟨S2048x64, .f32⟩
  | .hbm, ⟨4, _⟩ => ⟨S16384x64, .f32⟩
  | .hbm, ⟨5, _⟩ => ⟨S1x64, .f32⟩
  | .hbm, ⟨6, _⟩ => ⟨S16384x64, .f32⟩
  | .hbm, ⟨7, _⟩ => ⟨S16384x64, .f32⟩
  | .hbm, ⟨8, _⟩ => ⟨S_, .f32⟩
  | .hbm, ⟨9, _⟩ => ⟨S16384, .f32⟩
  | .hbm, ⟨10, _⟩ => ⟨S_, .f32⟩
  | .hbm, ⟨11, _⟩ => ⟨S16384, .f32⟩
  | .hbm, ⟨12, _⟩ => ⟨S16384, .f32⟩
  | .hbm, ⟨13, _⟩ => ⟨S16384x1, .f32⟩
  | .hbm, ⟨14, _⟩ => ⟨S16384x64, .f32⟩
  | .hbm, ⟨15, _⟩ => ⟨S16384x64, .f32⟩
  | .hbm, ⟨16, _⟩ => ⟨S16384x64, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S16384x64, .f32⟩
  | .hbm, ⟨21, _⟩ => ⟨S16384x64, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  transposes_S64x2048_S2048x64_1_0 : S64x2048.Transposes [1, 0] S2048x64
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  reducesTo_S16384x64_S16384_d1 : S16384x64.ReducesTo [1] S16384
  h_S_ : 0 < S_.numel
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x64_0_1 : S16384x1.BroadcastsInDim S16384x64 (![0, 1] : Fin 2 → Fin S16384x64.rank)
  dot_S16384x2048_S2048x64_S16384x64_1_0_0_1_n_n_wf : DotDims.WF S16384x2048 S2048x64 S16384x64 [1] [0] [0] [1] [] []

variable [Facts₀]

def dot_S16384x2048_S2048x64_S16384x64_1_0_0_1_n_n : DotDims S16384x2048 S2048x64 S16384x64 where
  lhsContracting := [1]
  rhsContracting := [0]
  lhsNonContracting := [0]
  rhsNonContracting := [1]
  lhsBatch := []
  rhsBatch := []
  wf := dot_S16384x2048_S2048x64_S16384x64_1_0_0_1_n_n_wf

class Facts : Prop extends Facts₀ where

variable [Facts]
-- ==== Proof.KI.Body.lean ====
/-
  The kernel body of the idealized program, run once on whole staging buffers.

  One call of the body reads the weight block, the bias row and the two token blocks, and stores two
  slabs of the output block: slab 0 holds the row-softmax of the first token block's logits, slab 1 that of the
  second's. Here: what the output buffer holds afterwards, as the two stores laid over one another, and the
  body's triple. Stated for any float instance.
-/
import proofs.«180043_g3109556322596_cont_8to1_b_1097_16_alg».proof.Proof.Gen.KernelIdeal.Launch
import proofs.«180043_g3109556322596_cont_8to1_b_1097_16_alg».proof.Proof.Gen.KernelIdeal.Skeleton
import proofs.«180043_g3109556322596_cont_8to1_b_1097_16_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes -/

/-- The whole weight block. -/
abbrev rW : Rect S64x2048 := Rect.unit (s := S64x2048) ![0, 0] S64x2048.size inb_S64x2048_S64x2048_0_0
/-- The whole bias row. -/
abbrev rB : Rect S1x64 := Rect.unit (s := S1x64) ![0, 0] S1x64.size inb_S1x64_S1x64_0_0
/-- A whole token block. -/
abbrev rX : Rect S1x1024x2048 := Rect.unit (s := S1x1024x2048) ![0, 0, 0] S1x1024x2048.size inb_S1x1024x2048_S1x1024x2048_0_0_0
/-- Slab 0 of the output block; -/
abbrev rO0 : Rect S2x1024x64 := Rect.unit (s := S2x1024x64) ![0, 0, 0] S1x1024x64.size inb_S2x1024x64_S1x1024x64_0_0_0
/-- and slab 1. -/
abbrev rO1 : Rect S2x1024x64 := Rect.unit (s := S2x1024x64) ![1, 0, 0] S1x1024x64.size inb_S2x1024x64_S1x1024x64_1_0_0

/-! ## What the body leaves in the output buffer -/

/-- The output buffer after the body, from the four input blocks: the later store (slab 1, from the second token
    block) over the earlier one (slab 0, from the first). -/
def outBlk (x1 x2 : Vec F S1x1024x2048 .f32) (w : Vec F S64x2048 .f32) (b : Vec F S1x64 .f32) : Vec F S2x1024x64 .f32 :=
  View.canon [⟨rO1, k0_pay1 (k0_pay5 (View.ld w rW) (View.ld b rB) (View.ld x2 rX))⟩,
    ⟨rO0, k0_pay4 (View.ld w rW) (View.ld b rB) (View.ld x1 rX)⟩]

/-- The two slabs tile the output block. -/
theorem outCover (p1 p0 : Vec F S1x1024x64 .f32) (y : S2x1024x64.Idx) :
    ∃ pc ∈ ([⟨rO1, p1⟩, ⟨rO0, p0⟩] : List (View.Piece (Elt F) S2x1024x64 .f32)), y ∈ pc.1.set :=
  View.cover_of_tiled [⟨rO1, p1⟩, ⟨rO0, p0⟩] S1x1024x64.size (by rfl) y

/-! ## The body's triple -/

set_option maxHeartbeats 1000000 in
/-- The body on whole staging buffers, the inputs' at read contents and the output's at anything, returns holding
    the inputs' as they were and the output's at `outBlk` of them. -/
theorem sound_kernel (c : Dev nD) (E : Set ℕ) (i : grid0.Coords)
    (arg1 : Memref sig .tc .vmem S1x1024x2048 .f32) (harg1 : arg1.IsWhole) (arg2 : Memref sig .tc .vmem S1x1024x2048 .f32) (harg2 : arg2.IsWhole)
    (arg3 : Memref sig .tc .vmem S64x2048 .f32) (harg3 : arg3.IsWhole) (arg4 : Memref sig .tc .vmem S1x64 .f32) (harg4 : arg4.IsWhole)
    (arg5 : Memref sig .tc .vmem S2x1024x64 .f32) (harg5 : arg5.IsWhole)
    (x1 x2 : Vec F S1x1024x2048 .f32) (w : Vec F S64x2048 .f32) (b : Vec F S1x64 .f32) (K : PUnit → sProp 𝕄) :
    iprop(owns (c : Thread nD τ) arg1 fullShare x1 ∗ owns (c : Thread nD τ) arg2 fullShare x2 ∗ owns (c : Thread nD τ) arg3 fullShare w
        ∗ owns (c : Thread nD τ) arg4 fullShare b ∗ (∃ d, owns (c : Thread nD τ) arg5 fullShare d)
        ∗ (iprop(owns (c : Thread nD τ) arg1 fullShare x1 ∗ owns (c : Thread nD τ) arg2 fullShare x2 ∗ owns (c : Thread nD τ) arg3 fullShare w
            ∗ owns (c : Thread nD τ) arg4 fullShare b ∗ owns (c : Thread nD τ) arg5 fullShare (outBlk x1 x2 w b)) -∗ K ⟨⟩))
      ⊢ wp frame (wpE (defs₀ (F := F)) Variants.none c none) E (cc0__router_kernel i arg1 harg1 arg2 harg2 arg3 harg3 arg4 harg4 arg5 harg5) K := by
  simp only [cc0__router_kernel_eq_skeleton]; unfold cc0__router_kernel_skel
  simp only [k0_part1_eq_skeleton]; unfold k0_part1_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1 hf2 hf3 hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  try dsimp only
  exact View.read_writes_eq_canon _ _ _ (outCover _ _)

end Cert.KernelIdeal.Hand

end
-- ==== Proof.KI.Data.lean ====
/-
  The pipeline's proof data for the idealized program, and its body obligation.

  When the region is entered the two reshapes before it have run; from those contents each window's block at a grid
  point is read off its array. Windows 0 and 1 are two windows on ONE array (the tokens, as two halves): the region
  holds that array's left half share for window 0 and its right half share for window 1, which is enough to read it.
  After the body each input's staging buffer holds its block, untouched, and the output's holds the two softmax slabs
  of the point's two token blocks. The body obligation at a point is the body's triple at those blocks.
-/
import proofs.«180043_g3109556322596_cont_8to1_b_1097_16_alg».proof.Proof.KI.Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the region's entry -/

/-- Core `c`'s buffers once the two reshapes before the region have run, from the launch contents. -/
abbrev W0 (c : Dev nD) : Valuation τ sig (Elt F) := StableHlo.after hostOps0 (fun b => m (c, b))

/-- The same, read at a TensorCore reference. -/
abbrev V (c : Dev nD) (b : Ref sig .tc) : Buf (Elt F) ((c : Thread nD τ).loc b) := W0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk (iblk m c 0 t) (iblk m c 1 t) (iblk m c 2 t) (iblk m c 3 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = outBlk (iblk m c 0 t) (iblk m c 1 t) (iblk m c 2 t) (iblk m c 3 t) := by dsimp only [dats]

/-! ## What the body finds in each input's staging buffer -/

/-- An input window's current staging buffer holds its block at every point, fetched there or not: the body leaves
    the block in place and, unfetched, the block index has not moved. -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Run.lean ====
/-
  The run of the idealized program: the two reshapes, the pipelined region, the last reshape.

  The program's main function is three stretches: host operations, the kernel region, host operations. Through the
  first and last the core holds every HBM buffer whole; at the region's entry the token array's full share is dealt
  into its two halves, one for each of the two windows that read it, and at the exit the halves are put together
  again. The region changes one buffer only, the kernel's result, which ends at what the pipeline's write-backs leave;
  the last reshape then copies it to the program's result. Stated for any float instance.
-/
import proofs.«180043_g3109556322596_cont_8to1_b_1097_16_alg».proof.Proof.KI.Data
import Idealize.ShloMosaic.Lib.Pipeline.Regions
import Idealize.ShloMosaic.Lib.Pipeline.Kit
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at the later boundaries -/

/-- At the region's exit: the kernel's result buffer at what the write-backs leave, every other buffer as entered. -/
def W1 (c : Dev nD) : Valuation τ sig (Elt F) :=
  Function.update (W0 m c) (Proc.devRef .tc main_v2) ((dats m 0 c).arrAt 4 cfg0.N)

theorem W1_v2 (c : Dev nD) : W1 m c (Proc.devRef .tc main_v2) = (dats m 0 c).arrAt 4 cfg0.N := Function.update_self ..
theorem W1_ne (c : Dev nD) (b : DevRef τ sig) (h : b ≠ Proc.devRef .tc main_v2) : W1 m c b = W0 m c b :=
  Function.update_of_ne h ..

/-- After the last reshape. -/
abbrev W2 (c : Dev nD) : Valuation τ sig (Elt F) := StableHlo.after hostOps1 (W1 m c)

/-- An input window's array is never written: at the end it holds what the region found. -/
theorem arrN0 (c : Dev nD) : (dats m 0 c).arrAt 0 cfg0.N = W0 m c (Proc.devRef .tc main_v0) :=
  ((dats m 0 c).arrAt_in 0 rfl _).trans (A_eq m c 0)
theorem arrN1 (c : Dev nD) : (dats m 0 c).arrAt 1 cfg0.N = W0 m c (Proc.devRef .tc main_v0) :=
  ((dats m 0 c).arrAt_in 1 rfl _).trans (A_eq m c 1)
theorem arrN2 (c : Dev nD) : (dats m 0 c).arrAt 2 cfg0.N = W0 m c (Proc.devRef .tc main_arg1) :=
  ((dats m 0 c).arrAt_in 2 rfl _).trans (A_eq m c 2)
theorem arrN3 (c : Dev nD) : (dats m 0 c).arrAt 3 cfg0.N = W0 m c (Proc.devRef .tc main_v1) :=
  ((dats m 0 c).arrAt_in 3 rfl _).trans (A_eq m c 3)

/-! ## The held buffers and the pipeline's arrays, one by one -/

/-- The core's seven HBM buffers held whole at a valuation. -/
theorem held_eq (c : Dev nD) (W : Valuation τ sig (Elt F)) :
    (StableHlo.held (c : Thread nD τ) (Pipeline.ucRefs τ sig) W : sProp 𝕄)
      = iprop((((c : Thread nD τ).loc main_arg0) ↦{fullShare} W (Proc.devRef .tc main_arg0))
          ∗ (((c : Thread nD τ).loc main_arg1) ↦{fullShare} W (Proc.devRef .tc main_arg1))
          ∗ (((c : Thread nD τ).loc main_arg2) ↦{fullShare} W (Proc.devRef .tc main_arg2))
          ∗ (((c : Thread nD τ).loc main_v0) ↦{fullShare} W (Proc.devRef .tc main_v0))
          ∗ (((c : Thread nD τ).loc main_v1) ↦{fullShare} W (Proc.devRef .tc main_v1))
          ∗ (((c : Thread nD τ).loc main_v2) ↦{fullShare} W (Proc.devRef .tc main_v2))
          ∗ (((c : Thread nD τ).loc main_v3) ↦{fullShare} W (Proc.devRef .tc main_v3))) := by
  unfold StableHlo.held
  rw [bigSep_eq_bigSepL_of_eq [Proc.devRef .tc main_arg0, Proc.devRef .tc main_arg1, Proc.devRef .tc main_arg2,
    Proc.devRef .tc main_v0, Proc.devRef .tc main_v1, Proc.devRef .tc main_v2, Proc.devRef .tc main_v3] (by decide) (by decide)]
  rfl

/-- The pipeline's five arrays at contents `Fa`: the token array twice, at its two half shares; the weights, the bias
    row and the result whole. -/
theorem arrays_eq5 (c : Dev nD) (Fa : (w : Fin cfg0.W) → Buf (Elt F) ((cfg0.win w).arr.view.loc (c.tc : Thread nD τ))) :
    ((dats m 0 c).arrays Fa : sProp 𝕄)
      = iprop((((c : Thread nD τ).loc main_v0) ↦{fullShare.left} Fa 0)
          ∗ (((c : Thread nD τ).loc main_v0) ↦{fullShare.right} Fa 1)
          ∗ (((c : Thread nD τ).loc main_arg1) ↦{fullShare} Fa 2)
          ∗ (((c : Thread nD τ).loc main_v1) ↦{fullShare} Fa 3)
          ∗ (((c : Thread nD τ).loc main_v2) ↦{fullShare} Fa 4)) := by
  unfold Dat.arrays
  rw [bigSep_W0, (arr_whole0 0).set_eq_univ, (arr_whole0 2).set_eq_univ,
    (arr_whole0 3).set_eq_univ, (arr_whole0 4).set_eq_univ]
  rfl

/-! ## The proof data family and the thread state -/

abbrev adm : (p : Fin 1) → (pcfgs (F := F) p).Adm := fun p => (cfgs p).toPCfg_adm

def pdats : (p : Fin 1) → (c : Dev nD) → Dat τ (Elt F) Unit ℕ (UR sig nD τ) ℕ (Pipeline.pin (pcfgs (F := F)) adm p) c
  | ⟨0, _⟩ => fun c => dats m 0 c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every stretch: the core's dues, at nothing. -/
abbrev R (c : Dev nD) : sProp 𝕄 := iprop(∃ W, owes (c : Thread nD τ) (0 : CellTallies nD τ sig Unit) W)

/-- A stretch of host operations over the core's HBM buffers. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- The two reshapes before the region, from the launch contents; -/
def seg0 : Pipeline.HostSeg (Name := ℕ) (U := UR sig nD τ) (pcfgs (F := F)) defs₀ 𝒱₀ L lv :=
  hseg hostOps0 hostOps0_sub ⟨rfl, rfl⟩ (fun c b => m (c, b))
/-- and the one after it, from the region's exit contents. -/
def seg1 : Pipeline.HostSeg (Name := ℕ) (U := UR sig nD τ) (pcfgs (F := F)) defs₀ 𝒱₀ L lv :=
  hseg hostOps1 hostOps1_sub rfl (W1 m)

theorem scopedRest0 (c : Dev nD) :
    (Pipeline.scopedRest (Ix := Unit) (Name := ℕ) (U := UR sig nD τ) (Lvl := ℕ) (Val := Elt F) (Pipeline.pin (pcfgs (F := F)) adm 0).spec c : sProp 𝕄) = BI.emp :=
  Pipeline.scopedRest_eq_of_list spec0 c [] (by decide) (by decide)

-- the library's lemmas are stated over the pinned configuration, which unification reaches only by unfolding plain
-- definitions in a metavariable's type
set_option backward.isDefEq.respectTransparency.types false in
/-- The region over the thread state: entered from every HBM buffer at `W0`, left at `W1`. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(emp)
  Y c := iprop(emp)
  Z c := iprop((((c : Thread nD τ).loc main_arg0) ↦{fullShare} W0 m c (Proc.devRef .tc main_arg0))
          ∗ (((c : Thread nD τ).loc main_arg2) ↦{fullShare} W0 m c (Proc.devRef .tc main_arg2))
          ∗ (((c : Thread nD τ).loc main_v3) ↦{fullShare} W0 m c (Proc.devRef .tc main_v3)))
  hentry c := by
    rw [Pipeline.ownSems0_none, held_eq, show pdats m 0 c = dats m 0 c from rfl, arrays_eq5]
    iintro ⟨⟨⟨Ha0, Ha1, Ha2, Hv0, Hv1, Hv2, Hv3⟩, HO⟩, -, -⟩
    ihave Hs := (pointsTo_share (PosShare.mem_left_op_right fullShare)).1 $$ Hv0
    icases Hs with ⟨Hl, Hr⟩
    imodintro
    isplitl [Hl Hr Ha1 Hv1 Hv2]
    · isplitl [Hl]; · iexact Hl
      isplitl [Hr]; · iexact Hr
      isplitl [Ha1]; · iexact Ha1
      isplitl [Hv1]; · iexact Hv1
      iexact Hv2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Ha0]; · iexact Ha0
    isplitl [Ha2]; · iexact Ha2
    iexact Hv3
  hin c := by
    rw [show (pdats m 0 c).Φ 0 = iprop(emp) from rfl]
    iintro -; iempintro
  hout c := by
    rw [Pipeline.ownSems0_none, show (pdats m 0 c).Φ (Fin.last _) = iprop(emp) from rfl, scopedRest0]
    iintro -
    isplitr; · iempintro
    isplitr <;> iempintro
  hexit c := by
    rw [held_eq, show pdats m 0 c = dats m 0 c from rfl, arrays_eq5, W1_v2,
      W1_ne m c (Proc.devRef .tc main_arg0) (by decide), W1_ne m c (Proc.devRef .tc main_arg1) (by decide),
      W1_ne m c (Proc.devRef .tc main_arg2) (by decide), W1_ne m c (Proc.devRef .tc main_v0) (by decide),
      W1_ne m c (Proc.devRef .tc main_v1) (by decide), W1_ne m c (Proc.devRef .tc main_v3) (by decide),
      arrN0, arrN1, arrN2, arrN3]
    iintro ⟨⟨Hl, Hr, Ha1, Hv1, Hv2⟩, HO, -, ⟨Ha0, Ha2, Hv3⟩⟩
    ihave Hv0 := (pointsTo_share (PosShare.mem_left_op_right fullShare)).2 $$ [Hl Hr]
    · isplitl [Hl] <;> iassumption
    imodintro
    isplitl [Ha0 Ha1 Ha2 Hv0 Hv1 Hv2 Hv3]
    · isplitl [Ha0]; · iexact Ha0
      isplitl [Ha1]; · iexact Ha1
      isplitl [Ha2]; · iexact Ha2
      isplitl [Hv0]; · iexact Hv0
      isplitl [Hv1]; · iexact Hv1
      isplitl [Hv2]; · iexact Hv2
      iexact Hv3
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (seg0 m), .region (reg0 m), .host (seg1 m) ]

theorem main_run (c : Dev nD) : main (F := F) c = Pipeline.Seg.run (segs m) :=
  main_segs adm (pdats m) () 𝒱₀ L lv (seg0 m) (seg1 m) (reg0 m) rfl rfl c

set_option backward.isDefEq.respectTransparency.types false in
/-- THE RUN: from any memory with zero counters every weakly fair execution of the program terminates, nothing
    faulting, and every final state has every HBM buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) cellOf_inj) (Pipeline.launchToks (Pipeline.pin (pcfgs (F := F)) adm) cellOf_inj))
    (hu₀ := by
      rw [ownU_emb₁]
      iintro Hu
      imodintro
      isplitl [Hu]; · iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c))
    (Tₙ := fun c => StableHlo.held (c : Thread nD τ) (Pipeline.ucRefs τ sig) (W2 m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, -, -⟩, -⟩
      imodintro
      isplitl [Hh]; · iexact Hh
      iexists ∅; iexact HO)
    (QY := fun c s => ∀ b ∈ Pipeline.ucRefs τ sig, s.mem (((c : Thread nD τ)).1, b) = W2 m c b)
    (hfin := fun c s' => by
      iintro ⟨Hh, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-! ## The arguments end as launched, and the frame -/

/-- No operation and no window writes an argument: at the end each holds what it held at launch. -/
theorem W2_arg0 (c : Dev nD) : W2 m c (Proc.devRef .tc main_arg0) = m ((c : Thread nD τ).loc main_arg0) := by
  show StableHlo.after hostOps1 (W1 m c) (Proc.devRef .tc main_arg0) = _
  after_results
  rw [W1_ne m c _ (by decide)]
  show StableHlo.after hostOps0 (fun b => m (c, b)) (Proc.devRef .tc main_arg0) = _
  after_results
theorem W2_arg1 (c : Dev nD) : W2 m c (Proc.devRef .tc main_arg1) = m ((c : Thread nD τ).loc main_arg1) := by
  show StableHlo.after hostOps1 (W1 m c) (Proc.devRef .tc main_arg1) = _
  after_results
  rw [W1_ne m c _ (by decide)]
  show StableHlo.after hostOps0 (fun b => m (c, b)) (Proc.devRef .tc main_arg1) = _
  after_results
theorem W2_arg2 (c : Dev nD) : W2 m c (Proc.devRef .tc main_arg2) = m ((c : Thread nD τ).loc main_arg2) := by
  show StableHlo.after hostOps1 (W1 m c) (Proc.devRef .tc main_arg2) = _
  after_results
  rw [W1_ne m c _ (by decide)]
  show StableHlo.after hostOps0 (fun b => m (c, b)) (Proc.devRef .tc main_arg2) = _
  after_results

/-- THE RUN with the result named: the program's result buffer at the last boundary's contents, the arguments as
    launched. -/
theorem run_value : θ_run defs (onTc (τ := τ) (main (F := F))) ⟨m, fun _ => 0, ρ⟩ (fun r => ∀ c : Dev nD,
      r.2.mem ((c.tc : Thread nD τ).loc main_v3) = W2 m c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨h c (Proc.devRef .tc main_v3) (by decide),
       (h c (Proc.devRef .tc main_arg0) (by decide)).trans (W2_arg0 m c),
       (h c (Proc.devRef .tc main_arg1) (by decide)).trans (W2_arg1 m c),
       (h c (Proc.devRef .tc main_arg2) (by decide)).trans (W2_arg2 m c)⟩)
    (run_all m ρ)

/-- THE FRAME: the program runs to the end, nothing faulting, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => (h c).2) (run_value m ρ)

end Cert.KernelIdeal.Hand

end
-- ==== Proof.Spec.lean ====
/-
  The function both programs compute, on the extended reals: a router's expert probabilities.

  For one token (a row `xr` of 2048 numbers), weights `W` (64 rows of 2048) and a bias `b` (64 numbers):
  the logit of expert `e` is the inner product of the token with the expert's weight row plus the expert's bias;
  the probabilities are the softmax of the 64 logits, computed the stable way — subtract the row's maximum (taken from
  −∞), exponentiate, divide by the sum of the exponentials. No program is imported here.
-/
import Idealize.ShloMosaic.PureOps.Ideal
import Idealize.ShloMosaic.Lib.ValueIdx

noncomputable section

open scoped BigOperators

namespace Cert.Spec

open Idealize.ShloMosaic Idealize.ShloMosaic.ValueIdx

/-- The logit of expert `e` for the token `xr`: ⟨xr, W e⟩ + b e. -/
def logit (xr : Fin 2048 → EReal) (W : Fin 64 → Fin 2048 → EReal) (b : Fin 64 → EReal) (e : Fin 64) : EReal :=
  (∑ k : Fin 2048, xr k * W e k) + b e

/-- The maximum of a row of 64 numbers, taken from −∞ (the word 0xFF800000). -/
def rowMax (l : Fin 64 → EReal) : EReal :=
  Finset.univ.fold max (Ideal.ofBits .f32 0xFF800000#32) l

/-- The softmax of a row at `e`: exp (l e − max l) / Σ e', exp (l e' − max l). -/
def softRow (l : Fin 64 → EReal) (e : Fin 64) : EReal :=
  Ideal.div (Ideal.exp (l e - rowMax l)) (∑ e' : Fin 64, Ideal.exp (l e' - rowMax l))

/-- The probability of expert `e` for the token `xr`. -/
def probs (xr : Fin 2048 → EReal) (W : Fin 64 → Fin 2048 → EReal) (b : Fin 64 → EReal) (e : Fin 64) : EReal :=
  softRow (logit xr W b) e

/-- The whole result: row `R` of the tokens against the weights and the bias, at expert `e`. -/
def out (x : (⟨2, ![16384, 2048]⟩ : Shape).Idx → EReal) (W : (⟨2, ![64, 2048]⟩ : Shape).Idx → EReal)
    (b : (⟨1, ![64]⟩ : Shape).Idx → EReal) : (⟨2, ![16384, 64]⟩ : Shape).Idx → EReal :=
  fun i => probs (fun k => x (ix2 (i 0) k)) (fun e' k => W (ix2 e' k)) (fun e' => b (ix1 e')) (i 1)

theorem out_apply (x : (⟨2, ![16384, 2048]⟩ : Shape).Idx → EReal) (W : (⟨2, ![64, 2048]⟩ : Shape).Idx → EReal)
    (b : (⟨1, ![64]⟩ : Shape).Idx → EReal) (R : Fin 16384) (e : Fin 64) :
    out x W b (ix2 R e) = probs (fun k => x (ix2 R k)) (fun e' k => W (ix2 e' k)) (fun e' => b (ix1 e')) e := rfl

end Cert.Spec

end
-- ==== Proof.KI.PayValue.lean ====
/-
  The kernel body's stored values read at one element, at the ideal instance.

  The body stores, for each of its two token blocks, the block's row-softmax: row r, expert e of the stored slab is the
  probability of expert e for token r of the block — the logits being the block's matrix product with the weight block
  (into a zero accumulator) plus the bias row, the maximum and the sum taken along the expert axis.
-/
import proofs.«180043_g3109556322596_cont_8to1_b_1097_16_alg».proof.Proof.Gen.KernelIdeal.Skeleton
import proofs.«180043_g3109556322596_cont_8to1_b_1097_16_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section
namespace Cert.KernelIdeal.PayValue
open Idealize.ShloMosaic Idealize.ShloMosaic.ValueIdx Cert.KernelIdeal Cert.KernelIdeal.Gen
open scoped BigOperators

/-! ## The matrix product's operand indices

The product contracts axis 1 of the token block [1024, 2048] with axis 1 of the weight block [64, 2048]: at the result
index (r, e) and contraction position k the left operand is read at (r, k), the right one at (e, k). -/

theorem lhs_ax0 (i : S1024x64.Idx) (q : dot_S1024x2048_S64x2048_S1024x64_1_1_0_0_n_n.contr.Idx) :
    (dot_S1024x2048_S64x2048_S1024x64_1_1_0_0_n_n.lhsIdx i q 0).val = (i 0).val := by
  unfold DotDims.lhsIdx
  rw [dif_neg (show ¬(0 : Fin S1024x2048.rank) ∈ dot_S1024x2048_S64x2048_S1024x64_1_1_0_0_n_n.lhsBatch by decide),
    dif_pos (show (0 : Fin S1024x2048.rank) ∈ dot_S1024x2048_S64x2048_S1024x64_1_1_0_0_n_n.lhsNonContracting by decide)]
  rfl

theorem lhs_ax1 (i : S1024x64.Idx) (q : dot_S1024x2048_S64x2048_S1024x64_1_1_0_0_n_n.contr.Idx) :
    (dot_S1024x2048_S64x2048_S1024x64_1_1_0_0_n_n.lhsIdx i q 1).val = (q ⟨0, by decide⟩).val :=
  dot_S1024x2048_S64x2048_S1024x64_1_1_0_0_n_n.lhsIdx_val_of_single rfl i q

theorem rhs_ax0 (i : S1024x64.Idx) (q : dot_S1024x2048_S64x2048_S1024x64_1_1_0_0_n_n.contr.Idx) :
    (dot_S1024x2048_S64x2048_S1024x64_1_1_0_0_n_n.rhsIdx i q 0).val = (i 1).val := by
  unfold DotDims.rhsIdx
  rw [dif_neg (show ¬(0 : Fin S64x2048.rank) ∈ dot_S1024x2048_S64x2048_S1024x64_1_1_0_0_n_n.rhsBatch by decide),
    dif_pos (show (0 : Fin S64x2048.rank) ∈ dot_S1024x2048_S64x2048_S1024x64_1_1_0_0_n_n.rhsNonContracting by decide)]
  rfl

theorem rhs_ax1 (i : S1024x64.Idx) (q : dot_S1024x2048_S64x2048_S1024x64_1_1_0_0_n_n.contr.Idx) :
    (dot_S1024x2048_S64x2048_S1024x64_1_1_0_0_n_n.rhsIdx i q 1).val = (q ⟨0, by decide⟩).val :=
  dot_S1024x2048_S64x2048_S1024x64_1_1_0_0_n_n.rhsIdx_val_of_single rfl i q

/-- The product into the zero accumulator at (r, e): the inner product of row r of the left operand with row e of the
right one. -/
theorem matmul_zero_apply (A : FVec Ideal S1024x2048 .bf16) (B : FVec Ideal S64x2048 .bf16) (r : Fin 1024) (e : Fin 64) :
    matmul dot_S1024x2048_S64x2048_S1024x64_1_1_0_0_n_n none A B (constant S1024x64 .f32 0x00000000#32) (ix2 r e)
      = ∑ k : Fin 2048, A (ix2 r k) * B (ix2 e k) := by
  refine (Ideal.matmul_constant_zero_apply dot_S1024x2048_S64x2048_S1024x64_1_1_0_0_n_n none A B (ix2 r e)).trans ?_
  rw [← Equiv.sum_comp (contrEquiv1 dot_S1024x2048_S64x2048_S1024x64_1_1_0_0_n_n 2048 rfl rfl).symm]
  refine Finset.sum_congr rfl fun k _ => ?_
  have hk := contrEquiv1_symm_val dot_S1024x2048_S64x2048_S1024x64_1_1_0_0_n_n 2048 rfl rfl k
  have el : dot_S1024x2048_S64x2048_S1024x64_1_1_0_0_n_n.lhsIdx (ix2 r e)
      ((contrEquiv1 dot_S1024x2048_S64x2048_S1024x64_1_1_0_0_n_n 2048 rfl rfl).symm k) = ix2 r k :=
    funext fun a => Fin.ext (by
      match a with
      | ⟨0, _⟩ => exact lhs_ax0 _ _
      | ⟨1, _⟩ => exact (lhs_ax1 _ _).trans hk)
  have er : dot_S1024x2048_S64x2048_S1024x64_1_1_0_0_n_n.rhsIdx (ix2 r e)
      ((contrEquiv1 dot_S1024x2048_S64x2048_S1024x64_1_1_0_0_n_n 2048 rfl rfl).symm k) = ix2 e k :=
    funext fun a => Fin.ext (by
      match a with
      | ⟨0, _⟩ => exact rhs_ax0 _ _
      | ⟨1, _⟩ => exact (rhs_ax1 _ _).trans hk)
  rw [el, er]

/-! ## The logits -/

/-- The block's logits: the token block (its leading unit axis dropped) times the weight block, into a zero
accumulator, plus the bias row on every row. -/
def logits (w : Vec Ideal S64x2048 .f32) (b2 : Vec Ideal S1x64 .f32) (xb : Vec Ideal S1x1024x2048 .f32) :
    FVec Ideal S1024x64 .f32 :=
  addf
    (matmul dot_S1024x2048_S64x2048_S1024x64_1_1_0_0_n_n none
      (truncf .bf16 (shapeCast S1024x2048 xb shapeCasts_S1x1024x2048_S1024x2048) bitsLt_bf16_f32) (k0_pay2 w)
      (constant S1024x64 .f32 0x00000000#32))
    (broadcastTo S1024x64 (k0_pay3 b2) broadcasts_S1x64_S1024x64)

/-- The token block with its leading unit axis dropped, at (r, k): the block at (0, r, k). The narrowing to bf16 is the
identity on extended reals. -/
theorem tokens_apply (xb : Vec Ideal S1x1024x2048 .f32) (r : Fin 1024) (k : Fin 2048) :
    (truncf .bf16 (shapeCast S1024x2048 xb shapeCasts_S1x1024x2048_S1024x2048) bitsLt_bf16_f32 :
        FVec Ideal S1024x2048 .bf16) (ix2 r k) = xb (ix3 (0 : Fin 1) r k) :=
  shapeCast_1ab_ab_apply xb shapeCasts_S1x1024x2048_S1024x2048 r k

/-- The narrowed weight block at (e, k) is the weight block there. -/
theorem weights_apply (w : Vec Ideal S64x2048 .f32) (e : Fin 64) (k : Fin 2048) :
    (k0_pay2 w : FVec Ideal S64x2048 .bf16) (ix2 e k) = w (ix2 e k) := rfl

/-- The bias row (cast to its own shape) broadcast down the rows, at (r, e): the bias at (0, e). -/
theorem bias_apply (b2 : Vec Ideal S1x64 .f32) (r : Fin 1024) (e : Fin 64) :
    broadcastTo S1024x64 (k0_pay3 (F := Ideal) b2) broadcasts_S1x64_S1024x64 (ix2 r e) = b2 (ix2 (0 : Fin 1) e) := by
  refine (broadcastTo_1b_ab_apply _ broadcasts_S1x64_S1024x64 r e).trans ?_
  unfold k0_pay3
  exact shapeCast_apply b2 shapeCasts_S1x64_S1x64 _ _ rfl

/-- The logits at (r, e): the inner product of token r with weight row e, plus bias e. -/
theorem logits_apply (w : Vec Ideal S64x2048 .f32) (b2 : Vec Ideal S1x64 .f32) (xb : Vec Ideal S1x1024x2048 .f32)
    (r : Fin 1024) (e : Fin 64) :
    logits w b2 xb (ix2 r e)
      = Cert.Spec.logit (fun k => xb (ix3 (0 : Fin 1) r k)) (fun e' k => w (ix2 e' k))
          (fun e' => b2 (ix2 (0 : Fin 1) e')) e := by
  unfold logits Cert.Spec.logit
  refine (addf_apply _ _ _).trans ?_
  rw [matmul_zero_apply, bias_apply]
  refine congrArg (· + b2 (ix2 (0 : Fin 1) e)) (Finset.sum_congr rfl fun k _ => ?_)
  rw [tokens_apply, weights_apply]

/-! ## The two reductions along the expert axis, and a column broadcast along it -/

/-- The maximum along axis 1 from −∞, at row r: the maximum of the row. -/
theorem rowMax_apply (v : FVec Ideal S1024x64 .f32) (r : Fin 1024) :
    multiReduction .maximumf [1] S1024 v 0xFF800000#32 reduces_S1024x64_S1024 (.inl rfl) rfl (ix1 r)
      = Cert.Spec.rowMax (fun e => v (ix2 r e)) := by
  refine (Ideal.multiReduction_maximumf_single v _ reduces_S1024x64_S1024 (.inl rfl) rfl (ix1 r)).trans ?_
  have hf : (v ∘ reduces_S1024x64_S1024.lift (ix1 r)) = fun e : Fin 64 => v (ix2 r e) :=
    funext fun e => congrArg v (funext fun a => Fin.ext (by
      match a with
      | ⟨0, _⟩ => rfl
      | ⟨1, _⟩ => rfl))
  exact congrArg (fun f : Fin 64 → EReal => Finset.univ.fold max (Ideal.ofBits .f32 0xFF800000#32) f) hf

/-- The sum along axis 1 from 0, at row r: the sum of the row. -/
theorem rowSum_apply (v : FVec Ideal S1024x64 .f32) (r : Fin 1024) :
    multiReduction .add [1] S1024 v 0x00000000#32 reduces_S1024x64_S1024 (.inl rfl) rfl (ix1 r)
      = ∑ e : Fin 64, v (ix2 r e) := by
  refine (Ideal.multiReduction_add_single v _ reduces_S1024x64_S1024 (.inl rfl) rfl (ix1 r)).trans ?_
  exact Finset.sum_congr rfl fun e _ => congrArg v (funext fun a => Fin.ext (by
    match a with
    | ⟨0, _⟩ => rfl
    | ⟨1, _⟩ => rfl))

/-- A vector of 1024 numbers cast to a column and broadcast along the expert axis, at (r, e): the vector at r. -/
theorem col_apply (x : FVec Ideal S1024 .f32) (r : Fin 1024) (e : Fin 64) :
    broadcastTo S1024x64 (shapeCast S1024x1 x shapeCasts_S1024_S1024x1) broadcasts_S1024x1_S1024x64 (ix2 r e)
      = x (ix1 r) := by
  refine (broadcastTo_apply _ broadcasts_S1024x1_S1024x64 (ix2 r e) (ix2 r (0 : Fin 1)) fun a => ?_).trans ?_
  · match a with
    | ⟨0, _⟩ => show r.val = if (1024 : Nat) = 1 then 0 else r.val; rw [if_neg (by decide)]
    | ⟨1, _⟩ => show 0 = if (1 : Nat) = 1 then 0 else e.val; rw [if_pos rfl]
  · exact shapeCast_apply x shapeCasts_S1024_S1024x1 (ix2 r (0 : Fin 1)) (ix1 r) (by
      rw [Shape.rowMajor_val_one, Shape.rowMajor_val_two]
      show r.val = r.val * 1 + 0
      omega)

/-! ## The row softmax -/

/-- exp (v − the row's maximum), as a [1024, 64] vector. -/
def expShift (v : FVec Ideal S1024x64 .f32) : FVec Ideal S1024x64 .f32 :=
  exp (subf v (broadcastTo S1024x64
    (shapeCast S1024x1 (multiReduction .maximumf [1] S1024 v 0xFF800000#32 reduces_S1024x64_S1024 (.inl rfl) rfl)
      shapeCasts_S1024_S1024x1) broadcasts_S1024x1_S1024x64))

theorem expShift_apply (v : FVec Ideal S1024x64 .f32) (r : Fin 1024) (e : Fin 64) :
    expShift v (ix2 r e) = Ideal.exp (v (ix2 r e) - Cert.Spec.rowMax (fun e' => v (ix2 r e'))) := by
  unfold expShift
  show Ideal.exp (v (ix2 r e) - broadcastTo S1024x64
    (shapeCast S1024x1 (multiReduction .maximumf [1] S1024 v 0xFF800000#32 reduces_S1024x64_S1024 (.inl rfl) rfl)
      shapeCasts_S1024_S1024x1) broadcasts_S1024x1_S1024x64 (ix2 r e)) = _
  rw [col_apply, rowMax_apply]

/-- The shifted exponentials divided by their row sums. -/
def softmaxRows (v : FVec Ideal S1024x64 .f32) : FVec Ideal S1024x64 .f32 :=
  divf (expShift v) (broadcastTo S1024x64
    (shapeCast S1024x1 (multiReduction .add [1] S1024 (expShift v) 0x00000000#32 reduces_S1024x64_S1024 (.inl rfl) rfl)
      shapeCasts_S1024_S1024x1) broadcasts_S1024x1_S1024x64)

theorem softmaxRows_apply (v : FVec Ideal S1024x64 .f32) (r : Fin 1024) (e : Fin 64) :
    softmaxRows v (ix2 r e) = Cert.Spec.softRow (fun e' => v (ix2 r e')) e := by
  unfold softmaxRows Cert.Spec.softRow
  refine (divf_apply _ _ _).trans ?_
  rw [col_apply, rowSum_apply, expShift_apply]
  exact congrArg (Ideal.div _) (Finset.sum_congr rfl fun e' _ => expShift_apply v r e')

/-! ## The payloads -/

/-- The second block's slab, before the leading unit axis is added, is the row softmax of the logits. -/
theorem pay5_eq (w : Vec Ideal S64x2048 .f32) (b2 : Vec Ideal S1x64 .f32) (xb : Vec Ideal S1x1024x2048 .f32) :
    k0_pay5 (F := Ideal) w b2 xb = softmaxRows (logits w b2 xb) := rfl

theorem pay5_apply (w : Vec Ideal S64x2048 .f32) (b2 : Vec Ideal S1x64 .f32) (xb : Vec Ideal S1x1024x2048 .f32) (r : Fin 1024) (e : Fin 64) :
    k0_pay5 (F := Ideal) w b2 xb (ix2 r e)
      = Cert.Spec.probs (fun k => xb (ix3 (0 : Fin 1) r k)) (fun e' k => w (ix2 e' k)) (fun e' => b2 (ix2 (0 : Fin 1) e')) e := by
  rw [pay5_eq, softmaxRows_apply]
  unfold Cert.Spec.probs
  exact congrArg (fun l => Cert.Spec.softRow l e) (funext fun e' => logits_apply w b2 xb r e')

/-- The first block's payload is the same chain with the unit axis added at the end. -/
theorem pay4_eq (w : Vec Ideal S64x2048 .f32) (b2 : Vec Ideal S1x64 .f32) (xb : Vec Ideal S1x1024x2048 .f32) :
    k0_pay4 (F := Ideal) w b2 xb = k0_pay1 (F := Ideal) (k0_pay5 (F := Ideal) w b2 xb) := rfl

/-- A slab with the leading unit axis added, at (0, r, e): the slab at (r, e). -/
theorem pay1_apply (y : FVec Ideal S1024x64 .f32) (r : Fin 1024) (e : Fin 64) :
    k0_pay1 (F := Ideal) y (ix3 (0 : Fin 1) r e) = y (ix2 r e) := by
  unfold k0_pay1
  exact shapeCast_ab_1ab_apply y shapeCasts_S1024x64_S1x1024x64 (0 : Fin 1) r e

theorem pay4_apply (w : Vec Ideal S64x2048 .f32) (b2 : Vec Ideal S1x64 .f32) (xb : Vec Ideal S1x1024x2048 .f32) (r : Fin 1024) (e : Fin 64) :
    k0_pay4 (F := Ideal) w b2 xb (ix3 (0 : Fin 1) r e)
      = Cert.Spec.probs (fun k => xb (ix3 (0 : Fin 1) r k)) (fun e' k => w (ix2 e' k)) (fun e' => b2 (ix2 (0 : Fin 1) e')) e := by
  rw [pay4_eq]
  exact (pay1_apply _ r e).trans (pay5_apply w b2 xb r e)

theorem pay15_apply (w : Vec Ideal S64x2048 .f32) (b2 : Vec Ideal S1x64 .f32) (xb : Vec Ideal S1x1024x2048 .f32) (r : Fin 1024) (e : Fin 64) :
    k0_pay1 (F := Ideal) (k0_pay5 (F := Ideal) w b2 xb) (ix3 (0 : Fin 1) r e)
      = Cert.Spec.probs (fun k => xb (ix3 (0 : Fin 1) r k)) (fun e' k => w (ix2 e' k)) (fun e' => b2 (ix2 (0 : Fin 1) e')) e :=
  (pay1_apply _ r e).trans (pay5_apply w b2 xb r e)

end Cert.KernelIdeal.PayValue
end
-- ==== Proof.KI.Value.lean ====
/-
  What the idealized program's result array holds after its run, on the extended reals.

  Each grid point writes back one block of the kernel's result: two slabs, the row-softmax of the point's two token
  blocks. Block by block this is ONE function of the arrays the region finds: at half h, row R, expert e, the
  probability of expert e for token R of half h. The blocks tile the result, so it ends holding that function; the two
  reshapes before the region and the one after it only rename positions, so the program's result at row h·8192 + R is
  the probability row of token h·8192 + R of the argument.
-/
import proofs.«180043_g3109556322596_cont_8to1_b_1097_16_alg».proof.Proof.KI.Run
import proofs.«180043_g3109556322596_cont_8to1_b_1097_16_alg».proof.Proof.KI.PayValue
import proofs.«180043_g3109556322596_cont_8to1_b_1097_16_alg».proof.Proof.Spec
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-! ## One block -/

/-- The probabilities of token `r` of a token block against a weight block and a bias row. -/
def blkRow (xb : Vec Ideal S1x1024x2048 .f32) (w : Vec Ideal S64x2048 .f32) (b2 : Vec Ideal S1x64 .f32) (r : Fin 1024) (e : Fin 64) : EReal :=
  Cert.Spec.probs (fun k => xb (ix3 (0 : Fin 1) r k)) (fun e' k => w (ix2 e' k)) (fun e' => b2 (ix2 (0 : Fin 1) e')) e

theorem hz2 : (![0, 0] : Fin 2 → Nat) = fun _ => 0 := funext fun a => by fin_cases a <;> rfl
theorem hz3 : (![0, 0, 0] : Fin 3 → Nat) = fun _ => 0 := funext fun a => by fin_cases a <;> rfl

/-- Slab 0 of the output block is the first token block's probabilities, -/
theorem outBlk_apply0 (x1 x2 : Vec Ideal S1x1024x2048 .f32) (w : Vec Ideal S64x2048 .f32) (b2 : Vec Ideal S1x64 .f32)
    (r : Fin 1024) (e : Fin 64) :
    outBlk (F := Ideal) x1 x2 w b2 (ix3 (0 : Fin 2) r e) = blkRow x1 w b2 r e := by
  unfold outBlk
  simp only [View.ld_unit_zero (S := S64x2048) hz2, View.ld_unit_zero (S := S1x64) hz2, View.ld_unit_zero (S := S1x1024x2048) hz3]
  have hnm : ix3 (0 : Fin 2) r e ∉ (rO1).set := fun hmem => by
    have hh := Rect.mem_set_unit.mp hmem
    have h0 : (1 : Nat) ≤ 0 := (hh 0).1
    omega
  refine (View.canon_cons_of_not_mem (⟨rO1, _⟩ : View.Piece (Elt Ideal) S2x1024x64 .f32) _ hnm).trans ?_
  have he : ix3 (0 : Fin 2) r e = rO0.emb (ix3 (0 : Fin 1) r e) := by
    funext a; apply Fin.ext
    match a with
    | ⟨0, _⟩ => show (0 : Nat) = 0 + 1 * 0; omega
    | ⟨1, _⟩ => show r.val = 0 + 1 * r.val; omega
    | ⟨2, _⟩ => show e.val = 0 + 1 * e.val; omega
  rw [he]
  refine (View.canon_cons_emb rO0 _ [] (ix3 (0 : Fin 1) r e)).trans ?_
  exact Cert.KernelIdeal.PayValue.pay4_apply _ _ _ r e

/-- and slab 1 the second's. -/
theorem outBlk_apply1 (x1 x2 : Vec Ideal S1x1024x2048 .f32) (w : Vec Ideal S64x2048 .f32) (b2 : Vec Ideal S1x64 .f32)
    (r : Fin 1024) (e : Fin 64) :
    outBlk (F := Ideal) x1 x2 w b2 (ix3 (1 : Fin 2) r e) = blkRow x2 w b2 r e := by
  unfold outBlk
  simp only [View.ld_unit_zero (S := S64x2048) hz2, View.ld_unit_zero (S := S1x64) hz2, View.ld_unit_zero (S := S1x1024x2048) hz3]
  have he : ix3 (1 : Fin 2) r e = rO1.emb (ix3 (0 : Fin 1) r e) := by
    funext a; apply Fin.ext
    match a with
    | ⟨0, _⟩ => show (1 : Nat) = 1 + 1 * 0; omega
    | ⟨1, _⟩ => show r.val = 0 + 1 * r.val; omega
    | ⟨2, _⟩ => show e.val = 0 + 1 * e.val; omega
  rw [he, View.canon_cons_emb]
  exact Cert.KernelIdeal.PayValue.pay15_apply _ _ _ r e

end Cert.KernelIdeal.Hand

/-! ## The whole array -/

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The kernel's result as one function of the arrays the region finds: at half `h`, row `R`, expert `e` the
    probability of expert `e` for token `R` of half `h`. -/
def G3 (xv : S2x8192x2048.Idx → EReal) (Wm : S64x2048.Idx → EReal) (b1 : S1x64.Idx → EReal) : S2x8192x64.Idx → EReal :=
  fun j => Cert.Spec.probs (fun k => xv (ix3 (j 0) (j 1) k)) (fun e' k => Wm (ix2 e' k)) (fun e' => b1 (ix2 (0 : Fin 1) e')) (j 2)

/-- The printed index maps, decided over the grid: the two token windows sit on halves 0 and 1 at the output's row
    block, the weights' and the bias's blocks do not move, and the output's row block stays in range. -/
theorem idx_facts : ∀ t : Fin cfg0.N,
    win0_0.index t (0 : Fin 3) = 0 ∧ win0_0.index t (1 : Fin 3) = win0_4.index t (1 : Fin 3) ∧ win0_0.index t (2 : Fin 3) = 0
    ∧ win0_1.index t (0 : Fin 3) = 1 ∧ win0_1.index t (1 : Fin 3) = win0_4.index t (1 : Fin 3) ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (2 : Fin 3) = 0 ∧ win0_4.index t (1 : Fin 3) ≤ 7 :=
  (by decide +kernel : ∀ t : Fin grid0.N, _)

/-- Every row block of the result is some point's. -/
theorem idx_onto : ∀ q : Fin 8, ∃ t : Fin cfg0.N, win0_4.index t = ![0, q.val, 0] :=
  (by decide +kernel : ∀ q : Fin 8, ∃ t : Fin grid0.N, win0_4.index t = ![0, q.val, 0])

/-- The weights' block is the weights, -/
theorem wblk_apply (c : Dev nD) (t : Fin cfg0.N) (e' : Fin 64) (k : Fin 2048) :
    iblk m c 2 t (ix2 e' k) = V m c main_arg1 (ix2 e' k) := by
  obtain ⟨-, -, -, -, -, -, a20, a21, -⟩ := idx_facts t
  show V m c main_arg1 (((cfg0.win 2).blk t).view.emb (ix2 e' k)) = _
  refine congrArg (V m c main_arg1) (funext fun a => Fin.ext ?_)
  match a with
  | ⟨0, _⟩ => show win0_2.index t (0 : Fin 2) * 64 + 1 * e'.val = e'.val; omega
  | ⟨1, _⟩ => show win0_2.index t (1 : Fin 2) * 2048 + 1 * k.val = k.val; omega

/-- and the bias's block the bias row. -/
theorem bblk_apply (c : Dev nD) (t : Fin cfg0.N) (e' : Fin 64) :
    iblk m c 3 t (ix2 (0 : Fin 1) e') = V m c main_v1 (ix2 (0 : Fin 1) e') := by
  obtain ⟨-, -, -, -, -, -, -, -, a30, a31, -⟩ := idx_facts t
  show V m c main_v1 (((cfg0.win 3).blk t).view.emb (ix2 (0 : Fin 1) e')) = _
  refine congrArg (V m c main_v1) (funext fun a => Fin.ext ?_)
  match a with
  | ⟨0, _⟩ => show win0_3.index t (0 : Fin 2) * 1 + 1 * 0 = 0; omega
  | ⟨1, _⟩ => show win0_3.index t (1 : Fin 2) * 64 + 1 * e'.val = e'.val; omega

/-- WHAT POINT `t` WRITES BACK is block `t` of `G3` of the arrays as the region finds them. -/
theorem flushed4_eq (c : Dev nD) (t : Fin cfg0.N) :
    (dats m 0 c).flushed 4 t = ((cfg0.win 4).blk t).view.read (Elt Ideal) (G3 (V m c main_v0) (V m c main_arg1) (V m c main_v1)) := by
  show (cfg0.win 4).cut (grid0.coords t) ((dats m 0 c).after 4 t) = _
  rw [after4]
  obtain ⟨a00, a01, a02, a10, a11, a12, -, -, -, -, a40, a42, a41⟩ := idx_facts t
  funext y
  obtain ⟨h, r, e, rfl⟩ : ∃ (h : Fin 2) (r : Fin 1024) (e : Fin 64), y = ix3 h r e := ⟨y 0, y 1, y 2, eq_ix3 y⟩
  have hW : (fun (e' : Fin 64) (k : Fin 2048) => iblk m c 2 t (ix2 e' k)) = fun e' k => V m c main_arg1 (ix2 e' k) :=
    funext fun e' => funext fun k => wblk_apply m c t e' k
  have hB : (fun (e' : Fin 64) => iblk m c 3 t (ix2 (0 : Fin 1) e')) = fun e' => V m c main_v1 (ix2 (0 : Fin 1) e') :=
    funext fun e' => bblk_apply m c t e'
  match h with
  | ⟨0, _⟩ =>
    refine (outBlk_apply0 (iblk m c 0 t) (iblk m c 1 t) (iblk m c 2 t) (iblk m c 3 t) r e).trans ?_
    unfold blkRow
    rw [hW, hB]
    show _ = G3 (V m c main_v0) (V m c main_arg1) (V m c main_v1) (((cfg0.win 4).blk t).view.emb (ix3 (0 : Fin 2) r e))
    unfold G3
    have hx : (fun k : Fin 2048 => iblk m c 0 t (ix3 (0 : Fin 1) r k))
        = fun k => V m c main_v0 (ix3 ((((cfg0.win 4).blk t).view.emb (ix3 (0 : Fin 2) r e)) 0) ((((cfg0.win 4).blk t).view.emb (ix3 (0 : Fin 2) r e)) 1) k) :=
      funext fun k => by
        show V m c main_v0 (((cfg0.win 0).blk t).view.emb (ix3 (0 : Fin 1) r k)) = _
        refine congrArg (V m c main_v0) (funext fun a => Fin.ext ?_)
        match a with
        | ⟨0, _⟩ => show win0_0.index t (0 : Fin 3) * 1 + 1 * 0 = win0_4.index t (0 : Fin 3) * 2 + 1 * 0; omega
        | ⟨1, _⟩ => show win0_0.index t (1 : Fin 3) * 1024 + 1 * r.val = win0_4.index t (1 : Fin 3) * 1024 + 1 * r.val; omega
        | ⟨2, _⟩ => show win0_0.index t (2 : Fin 3) * 2048 + 1 * k.val = k.val; omega
    have he : ((((cfg0.win 4).blk t).view.emb (ix3 (0 : Fin 2) r e)) 2 : Fin 64) = e :=
      Fin.ext (by show win0_4.index t (2 : Fin 3) * 64 + 1 * e.val = e.val; omega)
    rw [hx]
    exact congrArg _ he.symm
  | ⟨1, _⟩ =>
    refine (outBlk_apply1 (iblk m c 0 t) (iblk m c 1 t) (iblk m c 2 t) (iblk m c 3 t) r e).trans ?_
    unfold blkRow
    rw [hW, hB]
    show _ = G3 (V m c main_v0) (V m c main_arg1) (V m c main_v1) (((cfg0.win 4).blk t).view.emb (ix3 (1 : Fin 2) r e))
    unfold G3
    have hx : (fun k : Fin 2048 => iblk m c 1 t (ix3 (0 : Fin 1) r k))
        = fun k => V m c main_v0 (ix3 ((((cfg0.win 4).blk t).view.emb (ix3 (1 : Fin 2) r e)) 0) ((((cfg0.win 4).blk t).view.emb (ix3 (1 : Fin 2) r e)) 1) k) :=
      funext fun k => by
        show V m c main_v0 (((cfg0.win 1).blk t).view.emb (ix3 (0 : Fin 1) r k)) = _
        refine congrArg (V m c main_v0) (funext fun a => Fin.ext ?_)
        match a with
        | ⟨0, _⟩ => show win0_1.index t (0 : Fin 3) * 1 + 1 * 0 = win0_4.index t (0 : Fin 3) * 2 + 1 * 1; omega
        | ⟨1, _⟩ => show win0_1.index t (1 : Fin 3) * 1024 + 1 * r.val = win0_4.index t (1 : Fin 3) * 1024 + 1 * r.val; omega
        | ⟨2, _⟩ => show win0_1.index t (2 : Fin 3) * 2048 + 1 * k.val = k.val; omega
    have he : ((((cfg0.win 4).blk t).view.emb (ix3 (1 : Fin 2) r e)) 2 : Fin 64) = e :=
      Fin.ext (by show win0_4.index t (2 : Fin 3) * 64 + 1 * e.val = e.val; omega)
    rw [hx]
    exact congrArg _ he.symm

/-- An index of the result is in point `t`'s block iff each coordinate is in the block's range on its axis. -/
theorem mem_blk4 (t : Fin cfg0.N) (i : S2x8192x64.Idx) :
    i ∈ ((cfg0.win 4).blk t).view.set ↔ ∀ a : Fin 3, win0_4.index t a * S2x1024x64.size a ≤ (i a).val ∧ (i a).val < win0_4.index t a * S2x1024x64.size a + S2x1024x64.size a := by
  show i ∈ ((View.whole main_v2).slice (win0_4.rect t)).set ↔ _
  rw [View.set_slice_whole, Rect.mem_set_unit]
  exact Iff.rfl

/-- The output's blocks tile the result: every index is in the block of the point whose row block holds its row. -/
theorem cover4 (i : S2x8192x64.Idx) :
    ∃ t : Fin cfg0.N, (cfg0.win 4).flush t = true ∧ i ∈ ((cfg0.win 4).blk t).view.set := by
  have hi0 : (i 0).val < 2 := (i 0).isLt
  have hi1 : (i 1).val < 8192 := (i 1).isLt
  have hi2 : (i 2).val < 64 := (i 2).isLt
  obtain ⟨t, ht⟩ := idx_onto ⟨(i 1).val / 1024, by omega⟩
  have q0 : win0_4.index t (0 : Fin 3) = 0 := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 2 ≤ (i 0).val ∧ (i 0).val < win0_4.index t (0 : Fin 3) * 2 + 2; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- THE RESULT ARRAY after the run. -/
theorem final4 (c : Dev nD) :
    (dats m 0 c).arrAt 4 cfg0.N = G3 (V m c main_v0) (V m c main_arg1) (V m c main_v1) :=
  (dats m 0 c).arrAt_eq_of_cover 4 _ (fun t _ => flushed4_eq m c t) cover4

end Cert.KernelIdeal.Hand

/-! ## The program's result -/

namespace Cert.KernelIdeal.Hand

open Idealize.ShloMosaic Idealize.ShloMosaic.TcCoe Idealize.ShloMosaic.ValueIdx Idealize.ShloMosaic.StableHlo
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The token array the region finds is the argument's rows in two halves: half `h`, row `R` is row h·8192 + R. -/
theorem V_v0_apply (c : Dev nD) (h : Fin 2) (R : Fin 8192) (k : Fin 2048) (Rr : Fin 16384) (hRr : Rr.val = h.val * 8192 + R.val) :
    V m c main_v0 (ix3 h R k) = m ((c : Thread nD τ).loc main_arg0) (ix2 Rr k) := by
  have e : (V m c main_v0 : S2x8192x2048.Idx → EReal)
      = fun i => shapeCast S2x8192x2048 (m ((c : Thread nD τ).loc main_arg0)) shapeCasts_S16384x2048_S2x8192x2048 i := by
    show StableHlo.after hostOps0 (fun b => m (c, b)) (Proc.devRef .tc main_v0) = _
    after_results; rfl
  rw [e]
  refine shapeCast_apply _ _ (ix3 h R k) (ix2 Rr k) ?_
  rw [Shape.rowMajor_val_two, Shape.rowMajor_val_three]
  show Rr.val * 2048 + k.val = (h.val * 8192 + R.val) * 2048 + k.val
  rw [hRr]

/-- The bias row the region finds is the bias. -/
theorem V_v1_apply (c : Dev nD) (e' : Fin 64) :
    V m c main_v1 (ix2 (0 : Fin 1) e') = m ((c : Thread nD τ).loc main_arg2) (ix1 e') := by
  have e : (V m c main_v1 : S1x64.Idx → EReal)
      = fun i => shapeCast S1x64 (m ((c : Thread nD τ).loc main_arg2)) shapeCasts_S64_S1x64 i := by
    show StableHlo.after hostOps0 (fun b => m (c, b)) (Proc.devRef .tc main_v1) = _
    after_results; rfl
  rw [e]
  refine shapeCast_apply _ _ (ix2 (0 : Fin 1) e') (ix1 e') ?_
  rw [Shape.rowMajor_val_one, Shape.rowMajor_val_two]
  show e'.val = 0 * 64 + e'.val
  omega

/-- The weights the region finds are the weights. -/
theorem V_arg1 (c : Dev nD) : V m c main_arg1 = m ((c : Thread nD τ).loc main_arg1) := by
  show StableHlo.after hostOps0 (fun b => m (c, b)) (Proc.devRef .tc main_arg1) = _
  after_results

/-- The program's result is the kernel's result array with its two halves laid end to end. -/
theorem W2_v3 (c : Dev nD) : (W2 m c (Proc.devRef .tc main_v3) : S16384x64.Idx → EReal)
    = fun i => shapeCast S16384x64 ((dats m 0 c).arrAt 4 cfg0.N) shapeCasts_S2x8192x64_S16384x64 i := by
  show StableHlo.after hostOps1 (W1 m c) (Proc.devRef .tc main_v3) = _
  after_results
  rw [W1_v2]
  rfl

/-- THE RESULT: every row of the program's result is the probability row of that token of the argument. -/
theorem result_eq (c : Dev nD) :
    W2 m c (Proc.devRef .tc main_v3)
      = Cert.Spec.out (m ((c : Thread nD τ).loc main_arg0)) (m ((c : Thread nD τ).loc main_arg1)) (m ((c : Thread nD τ).loc main_arg2)) := by
  rw [W2_v3, final4]
  funext i
  obtain ⟨R, e, rfl⟩ : ∃ (R : Fin 16384) (e : Fin 64), i = ix2 R e := ⟨i 0, i 1, eq_ix2 i⟩
  have hR : R.val < 16384 := R.isLt
  rw [Cert.Spec.out_apply]
  refine (shapeCast_apply _ _ (ix2 R e) (ix3 (⟨R.val / 8192, by omega⟩ : Fin 2) (⟨R.val % 8192, Nat.mod_lt _ (by decide)⟩ : Fin 8192) e) ?_).trans ?_
  · rw [Shape.rowMajor_val_two, Shape.rowMajor_val_three]
    show (R.val / 8192 * 8192 + R.val % 8192) * 64 + e.val = R.val * 64 + e.val
    omega
  show Cert.Spec.probs (fun k => V m c main_v0 (ix3 (⟨R.val / 8192, _⟩ : Fin 2) (⟨R.val % 8192, _⟩ : Fin 8192) k))
      (fun e' k => V m c main_arg1 (ix2 e' k)) (fun e' => V m c main_v1 (ix2 (0 : Fin 1) e')) e = _
  have hx : (fun k : Fin 2048 => V m c main_v0 (ix3 (⟨R.val / 8192, by omega⟩ : Fin 2) (⟨R.val % 8192, Nat.mod_lt _ (by decide)⟩ : Fin 8192) k))
      = fun k => m ((c : Thread nD τ).loc main_arg0) (ix2 R k) :=
    funext fun k => V_v0_apply m c _ _ k R (by show R.val = R.val / 8192 * 8192 + R.val % 8192; omega)
  have hb : (fun e' : Fin 64 => V m c main_v1 (ix2 (0 : Fin 1) e')) = fun e' => m ((c : Thread nD τ).loc main_arg2) (ix1 e') :=
    funext fun e' => V_v1_apply m c e'
  rw [hx, hb, V_arg1]

end Cert.KernelIdeal.Hand

end
-- ==== Proof.RefValue.lean ====
/-
  The reference's run with its result named: the expert probabilities of every token.

  The run's term is read stage by stage at a token `R` and an expert `e`: the contraction plus the broadcast bias is the
  logit; the reduction of the maximum over the expert axis is the fold of `max` from −∞ over the 64 logits of the row, and a
  further maximum with −∞ changes nothing because the fold is at least its initial value; the two broadcasts carry the row's
  maximum back to every expert; the exponentials summed from 0 over the expert axis are the softmax's denominator; the last
  quotient is the softmax itself.
-/
import proofs.«180043_g3109556322596_cont_8to1_b_1097_16_alg».proof.Proof.Gen.ReferenceIdeal.Read
import proofs.«180043_g3109556322596_cont_8to1_b_1097_16_alg».proof.Proof.Spec

noncomputable section
namespace Cert.ReferenceIdeal.RefValue
open Idealize.ShloMosaic Idealize.ShloMosaic.TcCoe Idealize.SL.Sem Cert.ReferenceIdeal Cert.ReferenceIdeal.Gen
open Cert.ReferenceIdeal.Read Idealize.ShloMosaic.ValueIdx
open scoped BigOperators

/-- An equation between two rank-two indices whose coordinates compute to the same numbers. -/
local macro "idx2_rfl" : tactic => `(tactic| (funext a; match a with | ⟨0, _⟩ => rfl | ⟨1, _⟩ => rfl))
/-- The same at rank one. -/
local macro "idx1_rfl" : tactic => `(tactic| (funext a; match a with | ⟨0, _⟩ => rfl))

variable (x : (⟨S16384x2048, .f32⟩ : BufTy).Contents (Elt Ideal)) (W : (⟨S64x2048, .f32⟩ : BufTy).Contents (Elt Ideal))
  (b : (⟨S64, .f32⟩ : BufTy).Contents (Elt Ideal))

/-- The 64 logits of token `R`: the specification's, of the token's row, the weight rows and the bias. -/
abbrev lg (R : Fin 16384) : Fin 64 → EReal :=
  Cert.Spec.logit (fun k => x (ix2 R k)) (fun e' k => W (ix2 e' k)) (fun e' => b (ix1 e'))

/-- The expert axis of the logits is reduced away: the token axis is what is left. -/
theorem reduces_d1 : S16384x64.Reduces [1] S16384 := by decide

/-- Token `R`'s index with expert `k` put back on the reduced axis is the index (R, k). -/
theorem lift_ix1 (R : Fin 16384) (k : Fin 64) : reduces_d1.lift (ix1 R) k = ix2 R k := by idx2_rfl

/-- Stage 4 (contraction over the 2048 features, plus the bias broadcast along the tokens) is the logit. -/
theorem v4_at (R : Fin 16384) (e : Fin 64) : val_main_v4 (F := Ideal) x W b (ix2 R e) = lg x W b R e := by
  rw [val_main_v4_apply, val_main_v1_apply, val_main_v3_apply, val_main_v2_apply]
  simp only [val_main_v0_apply, Ideal.addf_def]
  show _ = (∑ k : Fin 2048, x (ix2 R k) * W (ix2 e k)) + b (ix1 e)
  exact congrArg₂ (· + ·)
    (Finset.sum_congr rfl fun k _ => congrArg₂ (· * ·) (congrArg x (by idx2_rfl)) (congrArg W (by idx2_rfl)))
    (congrArg b (by idx1_rfl))

/-- Stage 5 (the maximum over the expert axis, from −∞) is the row's maximum. -/
theorem v5_at (R : Fin 16384) : val_main_v5 (F := Ideal) x W b (ix1 R) = Cert.Spec.rowMax (lg x W b R) := by
  have hrow : (fun e : Fin 64 => val_main_v4 (F := Ideal) x W b (ix2 R e)) = lg x W b R := funext fun e => v4_at x W b R e
  rw [← hrow]
  unfold val_main_v5
  generalize val_main_v4 (F := Ideal) x W b = y
  refine (Host.reduce_eq_fold_single (FloatOps.maximumf (F := Ideal) (φ := .f32)) y _ reducesTo_S16384x64_S16384_d1
    reduces_d1 h_S_ (ix1 R)).trans ?_
  show Finset.univ.fold max (Ideal.ofBits .f32 0xFF800000#32) (fun k : Fin 64 => y (reduces_d1.lift (ix1 R) k))
    = Finset.univ.fold max (Ideal.ofBits .f32 0xFF800000#32) (fun e : Fin 64 => y (ix2 R e))
  exact congrArg (fun f : Fin 64 → EReal => Finset.univ.fold max (Ideal.ofBits .f32 0xFF800000#32) f)
    (funext fun k => congrArg y (lift_ix1 R k))

/-- A fold of `max` is at least its initial value, so a further maximum with that value changes nothing. -/
theorem max_init_rowMax (l : Fin 64 → EReal) :
    max (Ideal.ofBits .f32 0xFF800000#32) (Cert.Spec.rowMax l) = Cert.Spec.rowMax l :=
  max_eq_right ((Finset.le_fold_max _).2 (Or.inl le_rfl))

/-- Stage 7 (the maximum of a broadcast −∞ and stage 5) is still the row's maximum. -/
theorem v7_at (R : Fin 16384) : val_main_v7 (F := Ideal) x W b (ix1 R) = Cert.Spec.rowMax (lg x W b R) := by
  rw [val_main_v7_apply, val_main_v6_apply, val_main_cst_0_apply, v5_at]
  exact max_init_rowMax _

/-- Stages 8 and 9 broadcast the row's maximum back to every expert. -/
theorem v9_at (R : Fin 16384) (e : Fin 64) : val_main_v9 (F := Ideal) x W b (ix2 R e) = Cert.Spec.rowMax (lg x W b R) := by
  rw [val_main_v9_apply, val_main_v8_apply]
  exact (congrArg (val_main_v7 (F := Ideal) x W b) (by idx1_rfl)).trans (v7_at x W b R)

/-- Stages 10 and 11: the exponential of the logit less the row's maximum. -/
theorem v11_at (R : Fin 16384) (e : Fin 64) :
    val_main_v11 (F := Ideal) x W b (ix2 R e) = Ideal.exp (lg x W b R e - Cert.Spec.rowMax (lg x W b R)) := by
  rw [val_main_v11_apply, val_main_v10_apply, v4_at, v9_at, Ideal.hostUnary_exp_def, Ideal.subf_def]

/-- Stage 12 (the sum over the expert axis, from 0) is the softmax's denominator. -/
theorem v12_at (R : Fin 16384) :
    val_main_v12 (F := Ideal) x W b (ix1 R) = ∑ e' : Fin 64, Ideal.exp (lg x W b R e' - Cert.Spec.rowMax (lg x W b R)) := by
  rw [val_main_v12_apply, val_main_cst_1_apply, Ideal.ofBits_def, Ideal.ofBits_zero_f32, zero_add]
  exact Finset.sum_congr rfl fun k _ =>
    (congrArg (val_main_v11 (F := Ideal) x W b) (by idx2_rfl)).trans (v11_at x W b R k)

/-- Stages 13 and 14 broadcast the denominator back to every expert. -/
theorem v14_at (R : Fin 16384) (e : Fin 64) :
    val_main_v14 (F := Ideal) x W b (ix2 R e) = ∑ e' : Fin 64, Ideal.exp (lg x W b R e' - Cert.Spec.rowMax (lg x W b R)) := by
  rw [val_main_v14_apply, val_main_v13_apply]
  exact (congrArg (val_main_v12 (F := Ideal) x W b) (by idx1_rfl)).trans (v12_at x W b R)

/-- Stage 15 (the quotient) is the probability of expert `e` for token `R`. -/
theorem v15_at (R : Fin 16384) (e : Fin 64) : val_main_v15 (F := Ideal) x W b (ix2 R e) = Cert.Spec.out x W b (ix2 R e) := by
  rw [val_main_v15_apply, v11_at, v14_at, Ideal.hostDivf_def, Cert.Spec.out_apply]
  rfl

/-- The last stage of the reference is the specification's function of the three arguments. -/
theorem result_eq : val_main_v15 (F := Ideal) x W b = Cert.Spec.out x W b := by
  funext i
  rw [eq_ix2 i]
  exact v15_at x W b (i 0) (i 1)

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15)
          = Cert.Spec.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono
    (fun _ h c => ⟨(h c).1.trans ((val_main_v15_eq (F := Ideal) _ _ _).trans (result_eq _ _ _)), (h c).2⟩)
    (Cert.ReferenceIdeal.Value.run (F := Ideal) m ρ)

end Cert.ReferenceIdeal.RefValue
end
-- ==== Proof.lean ====
/-
  A router's expert probabilities: softmax (x · Wᵀ + b) along the expert axis, for 16384 tokens of width 2048 and 64
  experts.

  The kernel splits the tokens into two halves, hands both halves to one pipelined region as two windows on the same
  array, and at each of 8 grid points computes, for a block of 1024 tokens of each half, the logits (a matrix product
  with the weights into a zero accumulator, plus the bias), the row maximum, the exponentials of the differences and
  their row sum, and the quotient. The reference does the same on the whole array with host operations. On the extended
  reals the two are one function: at row R and expert e,

      exp (L R e − max_e' L R e') / Σ_e' exp (L R e' − max_e' L R e'),   L R e = Σ_k x R k · W e k + b e,

  the maxima taken from −∞ and the sums from 0 — a change of float format is the identity, the product into a zero
  accumulator is the plain sum, and the tiling only renames positions. No law of arithmetic beyond 0 + s = s and
  max (−∞) s = s joins the two sides, so the precondition is not used.

  The frames: each program runs to the end, faults nowhere and leaves its arguments as launched. For the two kernel
  programs this is the run of main as host operations, the region, host operations — the token array's full share
  dealt in two halves to the two windows that read it for the time of the region. The idealization rewrote nothing, so
  it preserves the kernel trivially.
-/
import proofs.«180043_g3109556322596_cont_8to1_b_1097_16_alg».proof.Defs
import proofs.«180043_g3109556322596_cont_8to1_b_1097_16_alg».proof.Proof.Gen.Kernel
import proofs.«180043_g3109556322596_cont_8to1_b_1097_16_alg».proof.Proof.Gen.KernelIdeal
import proofs.«180043_g3109556322596_cont_8to1_b_1097_16_alg».proof.Proof.Gen.ReferenceIdeal
import proofs.«180043_g3109556322596_cont_8to1_b_1097_16_alg».proof.Proof.Gen.Pre_finite_inputs
import proofs.«180043_g3109556322596_cont_8to1_b_1097_16_alg».proof.Proof.Gen.ReferenceIdeal.Run
import proofs.«180043_g3109556322596_cont_8to1_b_1097_16_alg».proof.Proof.Gen.ReferenceIdeal.Read
import proofs.«180043_g3109556322596_cont_8to1_b_1097_16_alg».proof.Proof.K.Run
import proofs.«180043_g3109556322596_cont_8to1_b_1097_16_alg».proof.Proof.KI.Value
import proofs.«180043_g3109556322596_cont_8to1_b_1097_16_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_k : Cert.frame_Kernel := fun m ρ _ => Cert.Kernel.Hand.frame (F := Bits) m ρ

/-- So does its idealization. -/
theorem frame_ki : Cert.frame_KernelIdeal := fun m ρ _ => Cert.KernelIdeal.Hand.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.RefValue.run m ρ)

/-- The ideal pass rewrote no operation. -/
theorem preserves : Cert.preserves_Kernel_KernelIdeal := trivial

/-- From memories agreeing on the arguments both idealized programs end with every row of the result at the
    probability row of that token: the kernel's result array through its blocks and the reshapes around the region,
    the reference's through its host operations. -/
theorem algebraic : Cert.algebraic_KernelIdeal_ReferenceIdeal := by
  intro m ρ m' ρ' _ hagree
  refine ⟨fun c => Cert.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Hand.result_eq m c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
